-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S4x1024x1024 : Shape := ⟨3, ![4, 1024, 1024]⟩
abbrev S4x1024 : Shape := ⟨2, ![4, 1024]⟩
abbrev S4x32000x1024 : Shape := ⟨3, ![4, 32000, 1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x32000x1024 : S_.BroadcastsInDim S4x32000x1024 (![] : Fin 0 → Fin S4x32000x1024.rank)
  reducesTo_S4x32000x1024_S_d0_1_2 : S4x32000x1024.ReducesTo [0, 1, 2] S_

variable [Facts]

def fn_part1 {F : FTy → Type} [FloatOps F] (main_v13 : IVec S_ 1) (main_v16 : IVec S4x32000x1024 1) : IVec S_ 1 :=
  let main_c_5 : IVec S_ 1 := constantI S_ 1 1#1
  let main_v17 : IVec S_ 1 := (fun x v => Host.reduce IntOp.andi x v reducesTo_S4x32000x1024_S_d0_1_2 h_S_) main_v16 main_c_5
  let main_v18 : IVec S_ 1 := andi main_v13 main_v17
  main_v18

def fn {F : FTy → Type} [FloatOps F] (main_arg0 : FVec F S32x1x1024 .f32) (main_arg1 : FVec F S4x1024x1024 .f32) (main_arg2 : FVec F S4x1024 .f32) (main_arg3 : FVec F S4x32000x1024 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x32000x1024 .f32 := Host.absf main_arg3
  let main_cst_4 : FVec F S_ .f32 := constant S_ .f32 0x7F800000#32
  let main_v15 : FVec F S4x32000x1024 .f32 := broadcastInDim S4x32000x1024 ![] bcast_S_S4x32000x1024 main_cst_4
  let main_v16 : IVec S4x32000x1024 1 := cmpf .olt main_v14 main_v15
  fn_part1 (F := F) main_v13 main_v16
-- ==== Kernel.lean ====
abbrev S32x1x1024 : Shape := ⟨3, ![32, 1, 1024]⟩
abbrev S4x1024x1024 : Shape := ⟨3, ![4, 1024, 1024]⟩
abbrev S4x1024 : Shape := ⟨2, ![4, 1024]⟩
abbrev S4x32000x1024 : Shape := ⟨3, ![4, 32000, 1024]⟩
abbrev S32x1024 : Shape := ⟨2, ![32, 1024]⟩
abbrev S4x1x1024 : Shape := ⟨3, ![4, 1, 1024]⟩
abbrev S4x32x32000 : Shape := ⟨3, ![4, 32, 32000]⟩
abbrev S1x1024x1024 : Shape := ⟨3, ![1, 1024, 1024]⟩
abbrev S1x1x1024 : Shape := ⟨3, ![1, 1, 1024]⟩
abbrev S1x3200x1024 : Shape := ⟨3, ![1, 3200, 1024]⟩
abbrev S1x32x3200 : Shape := ⟨3, ![1, 32, 3200]⟩
abbrev S1024x1024 : Shape := ⟨2, ![1024, 1024]⟩
abbrev S1x1024 : Shape := ⟨2, ![1, 1024]⟩
abbrev S3200x1024 : Shape := ⟨2, ![3200, 1024]⟩
abbrev S32x3200 : Shape := ⟨2, ![32, 3200]⟩
abbrev S1x32x32000 : Shape := ⟨3, ![1, 32, 32000]⟩
abbrev S32x32000 : Shape := ⟨2, ![32, 32000]⟩
abbrev S32x1x32000 : Shape := ⟨3, ![32, 1, 32000]⟩

abbrev nBuf : Space → Nat
  | .hbm => 19
  | .vmem => 10
  | .smem => 0
  | _ => 0

abbrev bufTy : (tb : Table) → Fin (tcTables nBuf tb) → BufTy
  | .hbm, ⟨0, _⟩ => ⟨S32x1x1024, .f32⟩
  | .hbm, ⟨1, _⟩ => ⟨S4x1024x1024, .f32⟩
  | .hbm, ⟨2, _⟩ => ⟨S4x1024, .f32⟩
  | .hbm, ⟨3, _⟩ => ⟨S4x32000x1024, .f32⟩
  | .hbm, ⟨4, _⟩ => ⟨S32x1024, .f32⟩
  | .hbm, ⟨5, _⟩ => ⟨S4x1x1024, .f32⟩
  | .hbm, ⟨6, _⟩ => ⟨S4x32x32000, .f32⟩
  | .hbm, ⟨7, _⟩ => ⟨S1x32x32000, .f32⟩
  | .hbm, ⟨8, _⟩ => ⟨S32x32000, .f32⟩
  | .hbm, ⟨9, _⟩ => ⟨S32x1x32000, .f32⟩
  | .hbm, ⟨10, _⟩ => ⟨S1x32x32000, .f32⟩
  | .hbm, ⟨11, _⟩ => ⟨S32x32000, .f32⟩
  | .hbm, ⟨12, _⟩ => ⟨S32x1x32000, .f32⟩
  | .hbm, ⟨13, _⟩ => ⟨S1x32x32000, .f32⟩
  | .hbm, ⟨14, _⟩ => ⟨S32x32000, .f32⟩
  | .hbm, ⟨15, _⟩ => ⟨S32x1x32000, .f32⟩
  | .hbm, ⟨16, _⟩ => ⟨S1x32x32000, .f32⟩
  | .hbm, ⟨17, _⟩ => ⟨S32x32000, .f32⟩
  | .hbm, ⟨18, _⟩ => ⟨S32x1x32000, .f32⟩
  | .local _ .vmem, ⟨0, _⟩ => ⟨S32x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x3200x1024, .f32⟩
  | .local _ .vmem, ⟨6, _⟩ => ⟨S1x3200x1024, .f32⟩
  | .local _ .vmem, ⟨7, _⟩ => ⟨S1x32x3200, .f32⟩
  | .local _ .vmem, ⟨8, _⟩ => ⟨S1x32x3200, .f32⟩
  | .local _ .vmem, ⟨9, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3200x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x1x1024_S32x1024 : S32x1x1024.ShapeCasts S32x1024
  shapeCasts_S4x1024_S4x1x1024 : S4x1024.ShapeCasts S4x1x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S32x1024 : S1x1024.Broadcasts S32x1024
  inb_S1x3200x1024_S1x3200x1024_0_0_0 : ∀ a, (![0, 0, 0] : Fin 3 → Nat) a + S1x3200x1024.size a ≤ S1x3200x1024.size a
  h_S1x3200x1024 : 0 < S1x3200x1024.numel
  shapeCasts_S1x3200x1024_S3200x1024 : S1x3200x1024.ShapeCasts S3200x1024
  inb_S1x32x3200_S1x32x3200_0_0_0 : ∀ a, (![0, 0, 0] : Fin 3 → Nat) a + S1x32x3200.size a ≤ S1x32x3200.size a
  h_S1x32x3200 : 0 < S1x32x3200.numel
  shapeCasts_S1x32x3200_S32x3200 : S1x32x3200.ShapeCasts S32x3200
  shapeCasts_S32x3200_S1x32x3200 : S32x3200.ShapeCasts S1x32x3200
  slices_S4x32x32000_S1x32x32000_0_0_0 : S4x32x32000.Slices ![0, 0, 0] S1x32x32000
  shapeCasts_S1x32x32000_S32x32000 : S1x32x32000.ShapeCasts S32x32000
  shapeCasts_S32x32000_S32x1x32000 : S32x32000.ShapeCasts S32x1x32000
  slices_S4x32x32000_S1x32x32000_1_0_0 : S4x32x32000.Slices ![1, 0, 0] S1x32x32000
  slices_S4x32x32000_S1x32x32000_2_0_0 : S4x32x32000.Slices ![2, 0, 0] S1x32x32000
  slices_S4x32x32000_S1x32x32000_3_0_0 : S4x32x32000.Slices ![3, 0, 0] S1x32x32000
  dot_S32x1024_S1024x1024_S32x1024_1_1_0_0_n_n_wf : DotDims.WF S32x1024 S1024x1024 S32x1024 [1] [1] [0] [0] [] []
  dot_S32x1024_S3200x1024_S32x3200_1_1_0_0_n_n_wf : DotDims.WF S32x1024 S3200x1024 S32x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x1024x1024.size a
  hwx0_1 : ∀ i : grid0.Coords, EltTy.bits .f32 = 32 ∨ (Rect.block (s := S4x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x1024.size a
  hwx0_2 : ∀ i : grid0.Coords, EltTy.bits .f32 = 32 ∨ (Rect.block (s := S4x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3200x1024.size a ≤ S4x32000x1024.size a
  hwx0_3 : ∀ i : grid0.Coords, EltTy.bits .f32 = 32 ∨ (Rect.block (s := S4x32000x1024) S1x3200x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x3200.size a ≤ S4x32x32000.size a
  hwx0_4 : ∀ i : grid0.Coords, EltTy.bits .f32 = 32 ∨ (Rect.block (s := S4x32x32000) S1x32x3200.size (cc0_transform_4 i) (hinb0_4 i)).WholeWords (EltTy.packing .f32)

variable [Facts₀]

def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf
def dot_S32x1024_S3200x1024_S32x3200_1_1_0_0_n_n : DotDims S32x1024 S3200x1024 S32x3200 where
  lhsContracting := [1]
  rhsContracting := [1]
  lhsNonContracting := [0]
  rhsNonContracting := [0]
  lhsBatch := []
  rhsBatch := []
  wf := dot_S32x1024_S3200x1024_S32x3200_1_1_0_0_n_n_wf

abbrev win0_0 : Pipeline.Window sig grid0 :=
  Pipeline.Window.ofSpec (Memref.whole main_v0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x3200x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32x3200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S4x1024x1024 : Shape := ⟨3, ![4, 1024, 1024]⟩
abbrev S4x1024 : Shape := ⟨2, ![4, 1024]⟩
abbrev S4x32000x1024 : Shape := ⟨3, ![4, 32000, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1x32000x1024 : Shape := ⟨3, ![1, 32000, 1024]⟩
abbrev S32000x1024 : Shape := ⟨2, ![32000, 1024]⟩
abbrev S32x1x32000 : Shape := ⟨3, ![32, 1, 32000]⟩

abbrev nBuf : Space → Nat
  | .hbm => 84
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S4x1024x1024, .f32⟩
  | .hbm, ⟨2, _⟩ => ⟨S4x1024, .f32⟩
  | .hbm, ⟨3, _⟩ => ⟨S4x32000x1024, .f32⟩
  | .hbm, ⟨4, _⟩ => ⟨S1x1024x1024, .f32⟩
  | .hbm, ⟨5, _⟩ => ⟨S1024x1024, .f32⟩
  | .hbm, ⟨6, _⟩ => ⟨S32x1x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S_, .f32⟩
  | .hbm, ⟨15, _⟩ => ⟨S32x1x1024, .f32⟩
  | .hbm, ⟨16, _⟩ => ⟨S32x1x1024, .f32⟩
  | .hbm, ⟨17, _⟩ => ⟨S_, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S1x32000x1024, .f32⟩
  | .hbm, ⟨22, _⟩ => ⟨S32000x1024, .f32⟩
  | .hbm, ⟨23, _⟩ => ⟨S32x1x32000, .f32⟩
  | .hbm, ⟨24, _⟩ => ⟨S1x1024x1024, .f32⟩
  | .hbm, ⟨25, _⟩ => ⟨S1024x1024, .f32⟩
  | .hbm, ⟨26, _⟩ => ⟨S32x1x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S32x1x1024, .f32⟩
  | .hbm, ⟨31, _⟩ => ⟨S32x1x1024, .f32⟩
  | .hbm, ⟨32, _⟩ => ⟨S32x1x1024, .f32⟩
  | .hbm, ⟨33, _⟩ => ⟨S32x1x1024, .f32⟩
  | .hbm, ⟨34, _⟩ => ⟨S_, .f32⟩
  | .hbm, ⟨35, _⟩ => ⟨S32x1x1024, .f32⟩
  | .hbm, ⟨36, _⟩ => ⟨S32x1x1024, .f32⟩
  | .hbm, ⟨37, _⟩ => ⟨S_, .f32⟩
  | .hbm, ⟨38, _⟩ => ⟨S32x1x1024, .f32⟩
  | .hbm, ⟨39, _⟩ => ⟨S32x1x1024, .f32⟩
  | .hbm, ⟨40, _⟩ => ⟨S32x1x1024, .f32⟩
  | .hbm, ⟨41, _⟩ => ⟨S1x32000x1024, .f32⟩
  | .hbm, ⟨42, _⟩ => ⟨S32000x1024, .f32⟩
  | .hbm, ⟨43, _⟩ => ⟨S32x1x32000, .f32⟩
  | .hbm, ⟨44, _⟩ => ⟨S1x1024x1024, .f32⟩
  | .hbm, ⟨45, _⟩ => ⟨S1024x1024, .f32⟩
  | .hbm, ⟨46, _⟩ => ⟨S32x1x1024, .f32⟩
  | .hbm, ⟨47, _⟩ => ⟨S1x1024, .f32⟩
  | .hbm, ⟨48, _⟩ => ⟨S1024, .f32⟩
  | .hbm, ⟨49, _⟩ => ⟨S1x1x1024, .f32⟩
  | .hbm, ⟨50, _⟩ => ⟨S32x1x1024, .f32⟩
  | .hbm, ⟨51, _⟩ => ⟨S32x1x1024, .f32⟩
  | .hbm, ⟨52, _⟩ => ⟨S32x1x1024, .f32⟩
  | .hbm, ⟨53, _⟩ => ⟨S32x1x1024, .f32⟩
  | .hbm, ⟨54, _⟩ => ⟨S_, .f32⟩
  | .hbm, ⟨55, _⟩ => ⟨S32x1x1024, .f32⟩
  | .hbm, ⟨56, _⟩ => ⟨S32x1x1024, .f32⟩
  | .hbm, ⟨57, _⟩ => ⟨S_, .f32⟩
  | .hbm, ⟨58, _⟩ => ⟨S32x1x1024, .f32⟩
  | .hbm, ⟨59, _⟩ => ⟨S32x1x1024, .f32⟩
  | .hbm, ⟨60, _⟩ => ⟨S32x1x1024, .f32⟩
  | .hbm, ⟨61, _⟩ => ⟨S1x32000x1024, .f32⟩
  | .hbm, ⟨62, _⟩ => ⟨S32000x1024, .f32⟩
  | .hbm, ⟨63, _⟩ => ⟨S32x1x32000, .f32⟩
  | .hbm, ⟨64, _⟩ => ⟨S1x1024x1024, .f32⟩
  | .hbm, ⟨65, _⟩ => ⟨S1024x1024, .f32⟩
  | .hbm, ⟨66, _⟩ => ⟨S32x1x1024, .f32⟩
  | .hbm, ⟨67, _⟩ => ⟨S1x1024, .f32⟩
  | .hbm, ⟨68, _⟩ => ⟨S1024, .f32⟩
  | .hbm, ⟨69, _⟩ => ⟨S1x1x1024, .f32⟩
  | .hbm, ⟨70, _⟩ => ⟨S32x1x1024, .f32⟩
  | .hbm, ⟨71, _⟩ => ⟨S32x1x1024, .f32⟩
  | .hbm, ⟨72, _⟩ => ⟨S32x1x1024, .f32⟩
  | .hbm, ⟨73, _⟩ => ⟨S32x1x1024, .f32⟩
  | .hbm, ⟨74, _⟩ => ⟨S_, .f32⟩
  | .hbm, ⟨75, _⟩ => ⟨S32x1x1024, .f32⟩
  | .hbm, ⟨76, _⟩ => ⟨S32x1x1024, .f32⟩
  | .hbm, ⟨77, _⟩ => ⟨S_, .f32⟩
  | .hbm, ⟨78, _⟩ => ⟨S32x1x1024, .f32⟩
  | .hbm, ⟨79, _⟩ => ⟨S32x1x1024, .f32⟩
  | .hbm, ⟨80, _⟩ => ⟨S32x1x1024, .f32⟩
  | .hbm, ⟨81, _⟩ => ⟨S1x32000x1024, .f32⟩
  | .hbm, ⟨82, _⟩ => ⟨S32000x1024, .f32⟩
  | .hbm, ⟨83, _⟩ => ⟨S32x1x32000, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]

class Facts₀ : Prop where
  slices_S4x1024x1024_S1x1024x1024_0_0_0 : S4x1024x1024.Slices ![0, 0, 0] S1x1024x1024
  shapeCasts_S1x1024x1024_S1024x1024 : S1x1024x1024.ShapeCasts S1024x1024
  slices_S4x1024_S1x1024_0_0 : S4x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S32x1x1024_0_1_2 : S1x1x1024.BroadcastsInDim S32x1x1024 (![0, 1, 2] : Fin 3 → Fin S32x1x1024.rank)
  bcast_S_S32x1x1024 : S_.BroadcastsInDim S32x1x1024 (![] : Fin 0 → Fin S32x1x1024.rank)
  slices_S4x32000x1024_S1x32000x1024_0_0_0 : S4x32000x1024.Slices ![0, 0, 0] S1x32000x1024
  shapeCasts_S1x32000x1024_S32000x1024 : S1x32000x1024.ShapeCasts S32000x1024
  slices_S4x1024x1024_S1x1024x1024_1_0_0 : S4x1024x1024.Slices ![1, 0, 0] S1x1024x1024
  slices_S4x1024_S1x1024_1_0 : S4x1024.Slices ![1, 0] S1x1024
  slices_S4x32000x1024_S1x32000x1024_1_0_0 : S4x32000x1024.Slices ![1, 0, 0] S1x32000x1024
  slices_S4x1024x1024_S1x1024x1024_2_0_0 : S4x1024x1024.Slices ![2, 0, 0] S1x1024x1024
  slices_S4x1024_S1x1024_2_0 : S4x1024.Slices ![2, 0] S1x1024
  slices_S4x32000x1024_S1x32000x1024_2_0_0 : S4x32000x1024.Slices ![2, 0, 0] S1x32000x1024
  slices_S4x1024x1024_S1x1024x1024_3_0_0 : S4x1024x1024.Slices ![3, 0, 0] S1x1024x1024
  slices_S4x1024_S1x1024_3_0 : S4x1024.Slices ![3, 0] S1x1024
  slices_S4x32000x1024_S1x32000x1024_3_0_0 : S4x32000x1024.Slices ![3, 0, 0] S1x32000x1024
  dot_S32x1x1024_S1024x1024_S32x1x1024_2_1_01_0_n_n_wf : DotDims.WF S32x1x1024 S1024x1024 S32x1x1024 [2] [1] [0, 1] [0] [] []
  dot_S32x1x1024_S32000x1024_S32x1x32000_2_1_01_0_n_n_wf : DotDims.WF S32x1x1024 S32000x1024 S32x1x32000 [2] [1] [0, 1] [0] [] []

variable [Facts₀]

def dot_S32x1x1024_S1024x1024_S32x1x1024_2_1_01_0_n_n : DotDims S32x1x1024 S1024x1024 S32x1x1024 where
  lhsContracting := [2]
  rhsContracting := [1]
  lhsNonContracting := [0, 1]
  rhsNonContracting := [0]
  lhsBatch := []
  rhsBatch := []
  wf := dot_S32x1x1024_S1024x1024_S32x1x1024_2_1_01_0_n_n_wf
def dot_S32x1x1024_S32000x1024_S32x1x32000_2_1_01_0_n_n : DotDims S32x1x1024 S32000x1024 S32x1x32000 where
  lhsContracting := [2]
  rhsContracting := [1]
  lhsNonContracting := [0, 1]
  rhsNonContracting := [0]
  lhsBatch := []
  rhsBatch := []
  wf := dot_S32x1x1024_S32000x1024_S32x1x32000_2_1_01_0_n_n_wf

class Facts : Prop extends Facts₀ where

variable [Facts]
-- ==== Proof.Pieces.lean ====
/-
  What one step of the kernel's body leaves behind, as values. The body has two cases. At the first vocabulary tile
  of a head it computes the head's hidden layer from the hidden states, the head's first weight matrix and its bias
  row, stores it in the carried buffer, reads it back, and multiplies it with the tile of the second weight matrix;
  at the other tiles it only reads the carried buffer and multiplies. Each store writes a whole buffer and each load
  reads a whole buffer, so what a buffer holds afterwards is the stored value itself.
-/
import proofs.«142830_g72112500900637_cont_9to1_m_1202_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- All offsets of a whole-buffer access of rank 2 are zero. -/
theorem hz2 : (![0, 0] : Fin 2 → Nat) = fun _ => 0 := funext fun a => by fin_cases a <;> rfl
/-- All offsets of a whole-buffer access of rank 3 are zero. -/
theorem hz3 : (![0, 0, 0] : Fin 3 → Nat) = fun _ => 0 := funext fun a => by fin_cases a <;> rfl

/-- First tile of a head: the carried buffer ends holding the hidden layer computed from the three input blocks. -/
theorem scratch_first (c : Dev nD) (i : grid0.Coords) (arg2 : Memref sig .tc .vmem S32x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x3200x1024 .f32) (harg5 : arg5.IsWhole) (arg6 : Memref sig .tc .vmem S1x32x3200 .f32) (harg6 : arg6.IsWhole) (arg7 : Memref sig .tc .vmem S32x1024 .f32) (harg7 : arg7.IsWhole) (hc0 : cond0_0 i) (x0 : Vec F S32x1024 .f32) (x1 : Vec F S1x1024x1024 .f32) (x2 : Vec F S1x1x1024 .f32) (x3 : Vec F S1x3200x1024 .f32) :
    sout0_A_0 c i arg2 harg2 arg3 harg3 arg4 harg4 arg5 harg5 arg6 harg6 arg7 harg7 hc0 x0 x1 x2 x3 = k0_pay1 x0 x1 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg3.read_unread, harg4.read_unread,
    View.ld_unit_zero (S := S32x1024) hz2, View.ld_unit_zero (S := S1x1024x1024) hz3, View.ld_unit_zero (S := S1x1x1024) hz3]

/-- First tile of a head: the output block is the product of the hidden layer just stored with the weight tile. -/
theorem out_first (c : Dev nD) (i : grid0.Coords) (arg2 : Memref sig .tc .vmem S32x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x3200x1024 .f32) (harg5 : arg5.IsWhole) (arg6 : Memref sig .tc .vmem S1x32x3200 .f32) (harg6 : arg6.IsWhole) (arg7 : Memref sig .tc .vmem S32x1024 .f32) (harg7 : arg7.IsWhole) (hc0 : cond0_0 i) (x0 : Vec F S32x1024 .f32) (x1 : Vec F S1x1024x1024 .f32) (x2 : Vec F S1x1x1024 .f32) (x3 : Vec F S1x3200x1024 .f32) :
    out0_A_4 c i arg2 harg2 arg3 harg3 arg4 harg4 arg5 harg5 arg6 harg6 arg7 harg7 hc0 x0 x1 x2 x3 = k0_pay2 (k0_pay1 x0 x1 x2) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3, View.readCov_unit_zero (S := S32x1024) _ hz2]
  simp only [View.readAt_eq_ld, harg2.read_unread, harg3.read_unread, harg4.read_unread, harg5.read_unread,
    View.ld_unit_zero (S := S32x1024) hz2, View.ld_unit_zero (S := S1x1024x1024) hz3, View.ld_unit_zero (S := S1x1x1024) hz3,
    View.ld_unit_zero (S := S1x3200x1024) hz3]

/-- A later tile: the output block is the product of what the carried buffer holds with the weight tile. -/
theorem out_later (c : Dev nD) (i : grid0.Coords) (arg2 : Memref sig .tc .vmem S32x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x3200x1024 .f32) (harg5 : arg5.IsWhole) (arg6 : Memref sig .tc .vmem S1x32x3200 .f32) (harg6 : arg6.IsWhole) (arg7 : Memref sig .tc .vmem S32x1024 .f32) (harg7 : arg7.IsWhole) (hc0 : ¬cond0_0 i) (x0 : Vec F S32x1024 .f32) (x1 : Vec F S1x1024x1024 .f32) (x2 : Vec F S1x1x1024 .f32) (x3 : Vec F S1x3200x1024 .f32) (xs0 : Vec F S32x1024 .f32) :
    out0_B_4 c i arg2 harg2 arg3 harg3 arg4 harg4 arg5 harg5 arg6 harg6 arg7 harg7 hc0 x0 x1 x2 x3 xs0 = k0_pay2 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg5.read_unread, harg7.read_unread,
    View.ld_unit_zero (S := S32x1024) hz2, View.ld_unit_zero (S := S1x3200x1024) hz3]

end Cert.KernelIdeal.Pieces

end
-- ==== Proof.Spec.lean ====
/-
  Four decoding heads over one batch of hidden states. Head `i` maps the row `x b` of the hidden states
  (1024 entries) to 32000 scores in two steps: a hidden layer

      a i b o = ∑ k, x b k * W1 i o k + b1 i o,      g i b o = a i b o * logistic (a i b o)

  (an affine map followed by the SiLU gate), and an output layer without bias

      y i b v = ∑ o, g i b o * W2 i v o.

  Everything is read on the extended reals: the sums are finite sums there, and `logistic a = 1 / (1 + e^(-a))`
  with the conventions of the extended reals at the two infinities. Both programs compute these numbers;
  the arrays below are the shapes in which they hand them back.
-/
import Idealize.ShloMosaic.Lib.ValueIdx

noncomputable section

namespace Cert.Medusa

open Idealize.ShloMosaic Idealize.ShloMosaic.ValueIdx

/-- The SiLU gate on the extended reals: `a * logistic a`. -/
def silu (a : EReal) : EReal := a * Ideal.logistic a

/-- Entry `(b, o)` of head `i`'s hidden layer: the affine map of row `b` of the hidden states, gated. -/
def hidden (x : (⟨3, ![32, 1, 1024]⟩ : Shape).Idx → EReal) (w1 : (⟨3, ![4, 1024, 1024]⟩ : Shape).Idx → EReal)
    (b1 : (⟨2, ![4, 1024]⟩ : Shape).Idx → EReal) (i : Fin 4) (b : Fin 32) (o : Fin 1024) : EReal :=
  silu ((∑ k : Fin 1024, x (ix3 b 0 k) * w1 (ix3 i o k)) + b1 (ix2 i o))

/-- Score `v` of head `i` on row `b`: the hidden layer against row `v` of the head's output weights. -/
def logit (x : (⟨3, ![32, 1, 1024]⟩ : Shape).Idx → EReal) (w1 : (⟨3, ![4, 1024, 1024]⟩ : Shape).Idx → EReal)
    (b1 : (⟨2, ![4, 1024]⟩ : Shape).Idx → EReal) (w2 : (⟨3, ![4, 32000, 1024]⟩ : Shape).Idx → EReal)
    (i : Fin 4) (b : Fin 32) (v : Fin 32000) : EReal :=
  ∑ o : Fin 1024, hidden x w1 b1 i b o * w2 (ix3 i v o)

/-- Head `i`'s scores as the array of shape [32, 1, 32000] both programs return for it. -/
def head (x : (⟨3, ![32, 1, 1024]⟩ : Shape).Idx → EReal) (w1 : (⟨3, ![4, 1024, 1024]⟩ : Shape).Idx → EReal)
    (b1 : (⟨2, ![4, 1024]⟩ : Shape).Idx → EReal) (w2 : (⟨3, ![4, 32000, 1024]⟩ : Shape).Idx → EReal)
    (i : Fin 4) : (⟨3, ![32, 1, 32000]⟩ : Shape).Idx → EReal :=
  fun j => logit x w1 b1 w2 i (j 0) (j 2)

/-- All four heads stacked on a leading axis: the array of shape [4, 32, 32000] the kernel fills block by block. -/
def stacked (x : (⟨3, ![32, 1, 1024]⟩ : Shape).Idx → EReal) (w1 : (⟨3, ![4, 1024, 1024]⟩ : Shape).Idx → EReal)
    (b1 : (⟨2, ![4, 1024]⟩ : Shape).Idx → EReal) (w2 : (⟨3, ![4, 32000, 1024]⟩ : Shape).Idx → EReal) :
    (⟨3, ![4, 32, 32000]⟩ : Shape).Idx → EReal :=
  fun j => logit x w1 b1 w2 (j 0) (j 1) (j 2)

end Cert.Medusa

end
-- ==== Proof.LibDotRowsByRows.lean ====
/-
  A two-dimensional contraction in which BOTH operands are contracted on their second axis: the left operand has
  shape [M, K], the right one [N, K], and the result [M, N] holds at (r, c) the sum over the inner index k of
  left (r, k) * right (c, k) — the left operand times the transpose of the right one. Over the extended reals the
  matrix unit's product into a zero accumulator is exactly that finite sum. The statements are generic in the three
  extents and in the record of dimension numbers, of which they only use which axes are contracted, kept and batched.
-/
import Idealize.ShloMosaic.Lib.ValueIdx
import Idealize.ShloMosaic.PureOps.Ideal.Laws

noncomputable section

namespace Cert.DotRowsByRows

open Idealize.ShloMosaic Idealize.ShloMosaic.ValueIdx

variable {M K N : Nat}

/-- The dimension numbers of "rows by rows": axis 1 of each operand is contracted, axis 0 of each is kept, and
    there is no batch axis. -/
structure IsRowsByRows (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![M, K]⟩ ⟨2, ![N, K]⟩ ⟨2, ![M, N]⟩}

/-- A coordinate of an index only depends on the position's number. -/
private theorem coord_congr (j : (⟨2, ![M, N]⟩ : Shape).Idx) (p q : Nat) (hp : p < 2) (hq : q < 2) (h : p = q) :
    (j ⟨p, hp⟩).val = (j ⟨q, hq⟩).val := by subst h; rfl

/-- The left operand is read on its row axis at the output's row. -/
theorem lhs_row (h : IsRowsByRows d) (j : (⟨2, ![M, N]⟩ : Shape).Idx) (q : d.contr.Idx) :
    (d.lhsIdx j q 0).val = (j 0).val := by
  unfold DotDims.lhsIdx
  rw [dif_neg (show ¬(0 : Fin (⟨2, ![M, K]⟩ : Shape).rank) ∈ d.lhsBatch from by rw [h.lb]; exact List.not_mem_nil),
    dif_pos (show (0 : Fin (⟨2, ![M, K]⟩ : Shape).rank) ∈ d.lhsNonContracting from by rw [h.ln]; exact List.mem_singleton.mpr rfl)]
  simp only [Fin.val_cast]
  exact coord_congr j _ _ _ _ (by simp [h.lb, h.ln])

/-- The left operand is read on its inner axis at the contraction index. -/
theorem lhs_inner (h : IsRowsByRows d) (j : (⟨2, ![M, N]⟩ : Shape).Idx) (q : d.contr.Idx) :
    (d.lhsIdx j q 1).val = (q ⟨0, by rw [d.rank_contr, h.lc]; exact Nat.one_pos⟩).val :=
  d.lhsIdx_val_of_single h.lc j q

/-- The right operand is read on its row axis at the output's column. -/
theorem rhs_row (h : IsRowsByRows d) (j : (⟨2, ![M, N]⟩ : Shape).Idx) (q : d.contr.Idx) :
    (d.rhsIdx j q 0).val = (j 1).val := by
  unfold DotDims.rhsIdx
  rw [dif_neg (show ¬(0 : Fin (⟨2, ![N, K]⟩ : Shape).rank) ∈ d.rhsBatch from by rw [h.rb]; exact List.not_mem_nil),
    dif_pos (show (0 : Fin (⟨2, ![N, K]⟩ : Shape).rank) ∈ d.rhsNonContracting from by rw [h.rn]; exact List.mem_singleton.mpr rfl)]
  simp only [Fin.val_cast]
  exact coord_congr j _ _ _ _ (by simp [h.lb, h.ln, h.rn])

/-- The right operand is read on its inner axis at the contraction index. -/
theorem rhs_inner (h : IsRowsByRows d) (j : (⟨2, ![M, N]⟩ : Shape).Idx) (q : d.contr.Idx) :
    (d.rhsIdx j q 1).val = (q ⟨0, by rw [d.rank_contr, h.lc]; exact Nat.one_pos⟩).val :=
  d.rhsIdx_val_of_single h.rc j q

/-- One axis is contracted, -/
theorem contr_rank (h : IsRowsByRows d) : d.contr.rank = 1 := by rw [d.rank_contr, h.lc]; rfl

/-- and its extent is the inner extent `K`. -/
theorem contr_size (h : IsRowsByRows d) : d.contr.size ⟨0, by rw [contr_rank h]; exact Nat.one_pos⟩ = K := by
  have := d.size_contr 0 (by rw [h.lc]; exact Nat.one_pos)
  rw [this]
  simp [h.lc]

/-- The contraction's sum re-indexed by the inner coordinate. -/
theorem sum_contr (h : IsRowsByRows d) (A : (⟨2, ![M, K]⟩ : Shape).Idx → EReal) (B : (⟨2, ![N, K]⟩ : Shape).Idx → EReal)
    (j : (⟨2, ![M, N]⟩ : Shape).Idx) :
    (∑ q : d.contr.Idx, A (d.lhsIdx j q) * B (d.rhsIdx j q)) = ∑ k : Fin K, A (ix2 (j 0) k) * B (ix2 (j 1) k) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k :=
    funext fun a => Fin.ext (by
      match a with
      | ⟨0, _⟩ => exact lhs_row h _ _
      | ⟨1, _⟩ => exact (lhs_inner h _ _).trans hk)
  have er : d.rhsIdx j ((contrEquiv1 d K (contr_rank h) (contr_size h)).symm k) = ix2 (j 1) k :=
    funext fun a => Fin.ext (by
      match a with
      | ⟨0, _⟩ => exact rhs_row h _ _
      | ⟨1, _⟩ => exact (rhs_inner h _ _).trans hk)
  exact congrArg₂ (· * ·) (congrArg A el) (congrArg B er)

/-- The matrix unit's product into the zero accumulator, at the output index (r, c): the sum over k of
    left (r, k) * right (c, k). -/
theorem matmul_zero_apply (h : IsRowsByRows d) {φ₁ φ₂ : FTy} (prec : Option ContractPrecision)
    (A : FVec Ideal (⟨2, ![M, K]⟩ : Shape) φ₁) (B : FVec Ideal (⟨2, ![N, K]⟩ : Shape) φ₂) (r : Fin M) (c : Fin N) :
    FloatOps.matmul d prec A B (constant (⟨2, ![M, N]⟩ : Shape) .f32 0x00000000#32) (ix2 r c)
      = ∑ k : Fin K, A (ix2 r k) * B (ix2 c k) :=
  (Ideal.matmul_constant_zero_apply d prec A B (ix2 r c)).trans (sum_contr h A B (ix2 r c))

end Cert.DotRowsByRows

end
-- ==== Proof.Payload.lean ====
/-
  The two values the kernel's body stores, read at an index over the extended reals.
  The hidden-layer value: entry (b, o) is the SiLU gate of the affine map ∑ k, x (b, k) * w (0, o, k) + bias (0, 0, o)
  of row b of the hidden-state block x, where w is the head's block of first-layer weights (one leading unit axis)
  and bias its block of the bias (two leading unit axes).
  The output value: entry (0, b, v) is ∑ o, g (b, o) * w2 (0, v, o) for the hidden layer g and the tile w2 of the
  head's second-layer weights. Both products contract the second axis of both operands.
-/
import proofs.«142830_g72112500900637_cont_9to1_m_1202_3_alg».proof.Proof.Gen.KernelIdeal.Skeleton
import proofs.«142830_g72112500900637_cont_9to1_m_1202_3_alg».proof.Proof.Spec
import proofs.«142830_g72112500900637_cont_9to1_m_1202_3_alg».proof.Proof.LibDotRowsByRows
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

/-- The first product contracts the second axis of both operands. -/
theorem dot1_rows : Cert.DotRowsByRows.IsRowsByRows dot_S32x1024_S1024x1024_S32x1024_1_1_0_0_n_n :=
  ⟨rfl, rfl, rfl, rfl, rfl, rfl⟩

/-- So does the second. -/
theorem dot2_rows : Cert.DotRowsByRows.IsRowsByRows dot_S32x1024_S3200x1024_S32x3200_1_1_0_0_n_n :=
  ⟨rfl, rfl, rfl, rfl, rfl, rfl⟩

/-- A product of rows by rows into zero, plus one row added to every row, at (b, o). -/
theorem affine_apply (a : FVec Ideal S32x1024 .f32) (w : FVec Ideal S1024x1024 .f32) (r : FVec Ideal S1x1024 .f32)
    (b : Fin 32) (o : Fin 1024) :
    addf (matmul dot_S32x1024_S1024x1024_S32x1024_1_1_0_0_n_n none a w (constant S32x1024 .f32 0x00000000#32))
      (broadcastTo S32x1024 r broadcasts_S1x1024_S32x1024) (ix2 b o)
    = (∑ k : Fin 1024, a (ix2 b k) * w (ix2 o k)) + r (ix2 (0 : Fin 1) o) := by
  show FloatOps.matmul dot_S32x1024_S1024x1024_S32x1024_1_1_0_0_n_n none a w (constant S32x1024 .f32 0x00000000#32) (ix2 b o)
      + broadcastTo S32x1024 r broadcasts_S1x1024_S32x1024 (ix2 b o) = _
  rw [Cert.DotRowsByRows.matmul_zero_apply dot1_rows, broadcastTo_1b_ab_apply]

/-- The hidden-layer value at (b, o): the gated affine map. -/
theorem hidden_apply (x0 : Vec Ideal S32x1024 .f32) (x1 : Vec Ideal S1x1024x1024 .f32) (x2 : Vec Ideal S1x1x1024 .f32)
    (b : Fin 32) (o : Fin 1024) :
    k0_pay1 (F := Ideal) x0 x1 x2 (ix2 b o)
      = Cert.Medusa.silu ((∑ k : Fin 1024, x0 (ix2 b k) * x1 (ix3 (0 : Fin 1) o k)) + x2 (ix3 (0 : Fin 1) (0 : Fin 1) o)) := by
  have e := affine_apply (shapeCast S32x1024 x0 shapeCasts_S32x1024_S32x1024)
    (shapeCast S1024x1024 x1 shapeCasts_S1x1024x1024_S1024x1024) (shapeCast S1x1024 x2 shapeCasts_S1x1x1024_S1x1024) b o
  simp only [shapeCast_self, shapeCast_1ab_ab_apply] at e
  unfold k0_pay1 Cert.Medusa.silu
  simp only [shapeCast_self]
  rw [← e]
  rfl

/-- The output value at (0, b, v): the hidden layer against row v of the weight tile. -/
theorem out_apply (g : Vec Ideal S32x1024 .f32) (x3 : Vec Ideal S1x3200x1024 .f32) (b : Fin 32) (v : Fin 3200) :
    k0_pay2 (F := Ideal) g x3 (ix3 (0 : Fin 1) b v) = ∑ o : Fin 1024, g (ix2 b o) * x3 (ix3 (0 : Fin 1) v o) := by
  unfold k0_pay2
  rw [shapeCast_ab_1ab_apply]
  show FloatOps.matmul dot_S32x1024_S3200x1024_S32x3200_1_1_0_0_n_n none (g : FVec Ideal S32x1024 .f32)
      (shapeCast S3200x1024 x3 shapeCasts_S1x3200x1024_S3200x1024 : FVec Ideal S3200x1024 .f32)
      (constant S32x3200 .f32 0x00000000#32) (ix2 b v) = _
  rw [Cert.DotRowsByRows.matmul_zero_apply dot2_rows]
  refine Finset.sum_congr rfl fun o _ => ?_
  rw [shapeCast_1ab_ab_apply]

end Cert.KernelIdeal.Payload

end
-- ==== Proof.Blocks.lean ====
/-
  The grid has 4 x 10 points: point t works on head t / 10 and on vocabulary tile t % 10. This module reads the
  blocks the four input windows hand the body at point t as entries of the arrays they are cut from:
  the hidden states whole; the head's matrix of first-layer weights and its bias row (leading coordinate t / 10);
  and tile t % 10 (3200 rows) of the head's second-layer weights. Two of the arrays are reshapes of arguments made
  before the kernel is launched: the hidden states with their unit axis dropped, the bias with a unit axis inserted.
-/
import proofs.«142830_g72112500900637_cont_9to1_m_1202_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The head a grid point works on. -/
def headOf (t : Fin cfg0.N) : Fin 4 := ⟨t.val / 10, by have h := t.isLt; have hN : cfg0.N = 40 := N_0; omega⟩

/-- Row `v` of the vocabulary tile of point `t`, as a row of the head's 32000. -/
def rowOf (t : Fin cfg0.N) (v : Fin 3200) : Fin 32000 :=
  ⟨3200 * (t.val % 10) + v.val, by have hv := v.isLt; have h := Nat.mod_lt t.val (show 0 < 10 by decide); omega⟩

/-- The windows' block indices at every grid point, decided over the grid. -/
theorem idx_facts : ∀ t : Fin cfg0.N,
    win0_0.index t (0 : Fin 2) = 0 ∧ win0_0.index t (1 : Fin 2) = 0
    ∧ win0_1.index t (0 : Fin 3) = t.val / 10 ∧ win0_1.index t (1 : Fin 3) = 0 ∧ win0_1.index t (2 : Fin 3) = 0
    ∧ win0_2.index t (0 : Fin 3) = t.val / 10 ∧ win0_2.index t (1 : Fin 3) = 0 ∧ win0_2.index t (2 : Fin 3) = 0
    ∧ win0_3.index t (0 : Fin 3) = t.val / 10 ∧ win0_3.index t (1 : Fin 3) = t.val % 10 ∧ win0_3.index t (2 : Fin 3) = 0
    ∧ win0_4.index t (0 : Fin 3) = t.val / 10 ∧ win0_4.index t (1 : Fin 3) = 0 ∧ win0_4.index t (2 : Fin 3) = t.val % 10 :=
  (by decide +kernel : ∀ t : Fin grid0.N, _)

/-- The input blocks at a point, and the arrays they are cut from, each at its literal type. -/
abbrev xb0 (c : Dev nD) (t : Fin cfg0.N) : Vec F S32x1024 .f32 := iblk m c 0 t
abbrev xb1 (c : Dev nD) (t : Fin cfg0.N) : Vec F S1x1024x1024 .f32 := iblk m c 1 t
abbrev xb2 (c : Dev nD) (t : Fin cfg0.N) : Vec F S1x1x1024 .f32 := iblk m c 2 t
abbrev xb3 (c : Dev nD) (t : Fin cfg0.N) : Vec F S1x3200x1024 .f32 := iblk m c 3 t
abbrev ar0 (c : Dev nD) : Vec F S32x1024 .f32 := V m c main_v0
abbrev ar1 (c : Dev nD) : Vec F S4x1024x1024 .f32 := V m c main_arg1
abbrev ar2 (c : Dev nD) : Vec F S4x1x1024 .f32 := V m c main_v1
abbrev ar3 (c : Dev nD) : Vec F S4x32000x1024 .f32 := V m c main_arg3

/-- The four arguments as launched, each at its literal type. -/
abbrev ag0 (c : Dev nD) : Vec F S32x1x1024 .f32 := m ((c : Thread nD τ).loc main_arg0)
abbrev ag1 (c : Dev nD) : Vec F S4x1024x1024 .f32 := m ((c : Thread nD τ).loc main_arg1)
abbrev ag2 (c : Dev nD) : Vec F S4x1024 .f32 := m ((c : Thread nD τ).loc main_arg2)
abbrev ag3 (c : Dev nD) : Vec F S4x32000x1024 .f32 := m ((c : Thread nD τ).loc main_arg3)

/-- The hidden states' block is the whole array. -/
theorem xb0_apply (c : Dev nD) (t : Fin cfg0.N) (b : Fin 32) (k : Fin 1024) :
    xb0 m c t (ix2 b k) = ar0 m c (ix2 b k) := by
  show V m c main_v0 (((cfg0.win 0).blk t).view.emb (ix2 b k)) = V m c main_v0 (ix2 b k)
  obtain ⟨e0, e1, -⟩ := idx_facts t
  refine congrArg _ (funext fun a => Fin.ext ?_)
  match a with
  | ⟨0, _⟩ => show win0_0.index t (0 : Fin 2) * 32 + 1 * b.val = b.val; omega
  | ⟨1, _⟩ => show win0_0.index t (1 : Fin 2) * 1024 + 1 * k.val = k.val; omega

/-- The first-layer weights' block is the head's matrix. -/
theorem xb1_apply (c : Dev nD) (t : Fin cfg0.N) (o k : Fin 1024) :
    xb1 m c t (ix3 (0 : Fin 1) o k) = ar1 m c (ix3 (headOf t) o k) := by
  show V m c main_arg1 (((cfg0.win 1).blk t).view.emb (ix3 (0 : Fin 1) o k)) = V m c main_arg1 (ix3 (headOf t) o k)
  obtain ⟨-, -, e0, e1, e2, -⟩ := idx_facts t
  refine congrArg _ (funext fun a => Fin.ext ?_)
  match a with
  | ⟨0, _⟩ => show win0_1.index t (0 : Fin 3) * 1 + 1 * 0 = t.val / 10; omega
  | ⟨1, _⟩ => show win0_1.index t (1 : Fin 3) * 1024 + 1 * o.val = o.val; omega
  | ⟨2, _⟩ => show win0_1.index t (2 : Fin 3) * 1024 + 1 * k.val = k.val; omega

/-- The bias block is the head's row. -/
theorem xb2_apply (c : Dev nD) (t : Fin cfg0.N) (o : Fin 1024) :
    xb2 m c t (ix3 (0 : Fin 1) (0 : Fin 1) o) = ar2 m c (ix3 (headOf t) (0 : Fin 1) o) := by
  show V m c main_v1 (((cfg0.win 2).blk t).view.emb (ix3 (0 : Fin 1) (0 : Fin 1) o)) = V m c main_v1 (ix3 (headOf t) (0 : Fin 1) o)
  obtain ⟨-, -, -, -, -, e0, e1, e2, -⟩ := idx_facts t
  refine congrArg _ (funext fun a => Fin.ext ?_)
  match a with
  | ⟨0, _⟩ => show win0_2.index t (0 : Fin 3) * 1 + 1 * 0 = t.val / 10; omega
  | ⟨1, _⟩ => show win0_2.index t (1 : Fin 3) * 1 + 1 * 0 = 0; omega
  | ⟨2, _⟩ => show win0_2.index t (2 : Fin 3) * 1024 + 1 * o.val = o.val; omega

/-- The second-layer weights' block is the point's tile of the head's matrix. -/
theorem xb3_apply (c : Dev nD) (t : Fin cfg0.N) (v : Fin 3200) (o : Fin 1024) :
    xb3 m c t (ix3 (0 : Fin 1) v o) = ar3 m c (ix3 (headOf t) (rowOf t v) o) := by
  show V m c main_arg3 (((cfg0.win 3).blk t).view.emb (ix3 (0 : Fin 1) v o)) = V m c main_arg3 (ix3 (headOf t) (rowOf t v) o)
  obtain ⟨-, -, -, -, -, -, -, -, e0, e1, e2, -⟩ := idx_facts t
  refine congrArg _ (funext fun a => Fin.ext ?_)
  match a with
  | ⟨0, _⟩ => show win0_3.index t (0 : Fin 3) * 1 + 1 * 0 = t.val / 10; omega
  | ⟨1, _⟩ => show win0_3.index t (1 : Fin 3) * 3200 + 1 * v.val = 3200 * (t.val % 10) + v.val; omega
  | ⟨2, _⟩ => show win0_3.index t (2 : Fin 3) * 1024 + 1 * o.val = o.val; omega

/-- The first and third arrays are arguments as launched. -/
theorem ar1_eq (c : Dev nD) : ar1 m c = ag1 m c := V_main_arg1 m c
theorem ar3_eq (c : Dev nD) : ar3 m c = ag3 m c := V_main_arg3 m c

/-- The hidden states as the kernel sees them: the argument with its unit axis dropped. -/
theorem ar0_eq (c : Dev nD) :
    ar0 m c = shapeCast S32x1024 (m ((c : Thread nD τ).loc main_arg0)) shapeCasts_S32x1x1024_S32x1024 := by
  show StableHlo.after hostOps0 (fun b => m (c, b)) (Proc.devRef .tc main_v0) = _
  after_results
  rfl

/-- The bias as the kernel sees it: the argument with a unit axis inserted. -/
theorem ar2_eq (c : Dev nD) :
    ar2 m c = shapeCast S4x1x1024 (m ((c : Thread nD τ).loc main_arg2)) shapeCasts_S4x1024_S4x1x1024 := by
  show StableHlo.after hostOps0 (fun b => m (c, b)) (Proc.devRef .tc main_v1) = _
  after_results
  rfl

/-- Dropping the middle unit axis of a [32, 1, 1024] array: entry (b, k) is entry (b, 0, k). -/
theorem dropMid_apply {α : Type} (x : S32x1x1024.Idx → α) (b : Fin 32) (k : Fin 1024) :
    shapeCast S32x1024 x shapeCasts_S32x1x1024_S32x1024 (ix2 b k) = x (ix3 b (0 : Fin 1) k) :=
  shapeCast_apply x shapeCasts_S32x1x1024_S32x1024 (ix2 b k) (ix3 b (0 : Fin 1) k) (by
    rw [Shape.rowMajor_val_three, Shape.rowMajor_val_two]
    show (b.val * 1 + 0) * 1024 + k.val = b.val * 1024 + k.val
    omega)

/-- Inserting a middle unit axis into a [4, 1024] array: entry (i, 0, o) is entry (i, o). -/
theorem addMid_apply {α : Type} (x : S4x1024.Idx → α) (i : Fin 4) (o : Fin 1024) :
    shapeCast S4x1x1024 x shapeCasts_S4x1024_S4x1x1024 (ix3 i (0 : Fin 1) o) = x (ix2 i o) :=
  shapeCast_apply x shapeCasts_S4x1024_S4x1x1024 (ix3 i (0 : Fin 1) o) (ix2 i o) (by
    rw [Shape.rowMajor_val_three, Shape.rowMajor_val_two]
    show i.val * 1024 + o.val = (i.val * 1 + 0) * 1024 + o.val
    omega)

/-- Entry (b, k) of the hidden states as the kernel sees them. -/
theorem ar0_apply (c : Dev nD) (b : Fin 32) (k : Fin 1024) :
    ar0 m c (ix2 b k) = ag0 m c (ix3 b (0 : Fin 1) k) := by
  rw [ar0_eq]
  exact dropMid_apply _ b k

/-- Entry (i, 0, o) of the bias as the kernel sees it. -/
theorem ar2_apply (c : Dev nD) (i : Fin 4) (o : Fin 1024) :
    ar2 m c (ix3 i (0 : Fin 1) o) = ag2 m c (ix2 i o) := by
  rw [ar2_eq]
  exact addMid_apply _ i o

end Cert.KernelIdeal.Blocks

end
-- ==== Proof.Carried.lean ====
/-
  What the kernel carries from one grid point to the next. Point t works on head t / 10; at the head's first
  vocabulary tile (t divisible by 10) it computes the head's hidden layer and stores it, at the nine tiles after
  it the stored value is left alone. So after EVERY point t the carried buffer holds the hidden layer of head
  t / 10 (induction on t), and the block of scores point t hands back is that hidden layer against tile t % 10
  of the head's second-layer weights.
-/
import proofs.«142830_g72112500900637_cont_9to1_m_1202_3_alg».proof.Proof.Pieces
import proofs.«142830_g72112500900637_cont_9to1_m_1202_3_alg».proof.Proof.Payload
import proofs.«142830_g72112500900637_cont_9to1_m_1202_3_alg».proof.Proof.Blocks
import proofs.«142830_g72112500900637_cont_9to1_m_1202_3_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Carried

open Cert.KernelIdeal Cert.KernelIdeal.Gen Cert.KernelIdeal.Blocks

variable (m : (ℓ : Loc nD τ sig) → Buf (Elt Ideal) ℓ)

/-- Head `i`'s hidden layer, as the [32, 1024] array the kernel carries. -/
def hid (c : Dev nD) (i : Fin 4) : Vec Ideal S32x1024 .f32 :=
  fun j => Cert.Medusa.hidden (ag0 m c) (ag1 m c) (ag2 m c) i (j 0) (j 1)

/-- The hidden-layer value computed from the blocks of point `t` is the hidden layer of the point's head. -/
theorem hidden_blocks (c : Dev nD) (t : Fin cfg0.N) :
    k0_pay1 (xb0 m c t) (xb1 m c t) (xb2 m c t) = hid m c (headOf t) := by
  funext j
  obtain ⟨b, o, rfl⟩ : ∃ (b : Fin 32) (o : Fin 1024), j = ix2 b o := ⟨j 0, j 1, eq_ix2 j⟩
  refine (Payload.hidden_apply (xb0 m c t) (xb1 m c t) (xb2 m c t) b o).trans ?_
  show Cert.Medusa.silu ((∑ k : Fin 1024, xb0 m c t (ix2 b k) * xb1 m c t (ix3 (0 : Fin 1) o k)) + xb2 m c t (ix3 (0 : Fin 1) (0 : Fin 1) o))
    = Cert.Medusa.silu ((∑ k : Fin 1024, ag0 m c (ix3 b (0 : Fin 1) k) * ag1 m c (ix3 (headOf t) o k)) + ag2 m c (ix2 (headOf t) o))
  rw [xb2_apply, ar2_apply]
  refine congrArg Cert.Medusa.silu (congrArg (· + _) (Finset.sum_congr rfl fun k _ => ?_))
  rw [xb0_apply, ar0_apply, xb1_apply, ar1_eq]

/-- Two points of one head have the same head. -/
theorem headOf_pred (n : ℕ) (h : n + 1 < cfg0.N) (h0 : ¬(n + 1) % 10 = 0) :
    headOf ⟨n, Nat.lt_of_succ_lt h⟩ = headOf ⟨n + 1, h⟩ := by
  apply Fin.ext
  show n / 10 = (n + 1) / 10
  omega

/-- After every point the carried buffer holds the hidden layer of the point's head. -/
theorem scratch_eq (c : Dev nD) : ∀ (n : ℕ) (h : n < cfg0.N), (outsAt0 m c n h).2 = hid m c (headOf ⟨n, h⟩)
  | 0, h => by
    rw [outsAt0_A m c ⟨0, h⟩ rfl]
    dsimp only
    exact (Pieces.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl)
      (xb0 m c ⟨0, h⟩) (xb1 m c ⟨0, h⟩) (xb2 m c ⟨0, h⟩) (xb3 m c ⟨0, h⟩)).trans (hidden_blocks m c ⟨0, h⟩)
  | n + 1, h => by
    by_cases h0 : (n + 1) % 10 = 0
    · rw [outsAt0_A m c ⟨n + 1, h⟩ h0]
      dsimp only
      exact (Pieces.scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0)
        (xb0 m c ⟨n + 1, h⟩) (xb1 m c ⟨n + 1, h⟩) (xb2 m c ⟨n + 1, h⟩) (xb3 m c ⟨n + 1, h⟩)).trans (hidden_blocks m c ⟨n + 1, h⟩)
    · rw [outsAt0_B m c ⟨n + 1, h⟩ h0]
      dsimp only
      show (outsAt0 m c n _).2 = _
      rw [scratch_eq c n (Nat.lt_of_succ_lt h), headOf_pred n h h0]

/-- The block of scores point `t` leaves in the output's buffer: the hidden layer of the point's head against the
    point's tile of second-layer weights. -/
theorem out_eq (c : Dev nD) (t : Fin cfg0.N) :
    (outsAt0 m c t.val t.isLt).1 = k0_pay2 (hid m c (headOf t)) (xb3 m c t) := by
  by_cases h0 : t.val % 10 = 0
  · rw [outsAt0_A m c t h0]
    dsimp only
    refine (Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
      (xb0 m c t) (xb1 m c t) (xb2 m c t) (xb3 m c t)).trans ?_
    rw [hidden_blocks]
  · rw [outsAt0_B m c t h0]
    dsimp only
    refine (Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h))
      (xb0 m c t) (xb1 m c t) (xb2 m c t) (xb3 m c t) (outsAt0 m c (t.val - 1) (Nat.lt_of_le_of_lt (Nat.sub_le _ _) t.isLt)).2).trans ?_
    rw [scratch_eq]
    congr 2
    apply Fin.ext
    show (t.val - 1) / 10 = t.val / 10
    omega

end Cert.KernelIdeal.Carried

end
-- ==== Proof.Result.lean ====
/-
  The kernel's run, read as values. The 40 blocks of scores the grid points hand back tile the array of shape
  [4, 32, 32000]: block t sits at head t / 10, columns 3200 * (t % 10) … + 3199. Each block is the matching piece
  of the four heads' scores stacked on the leading axis, so the whole array ends holding the stacked scores. After
  the kernel the program cuts head i's slab out of that array and reshapes it to [32, 1, 32000]: the four results.
-/
import proofs.«142830_g72112500900637_cont_9to1_m_1202_3_alg».proof.Proof.Carried
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Carried

variable (m : (ℓ : Loc nD τ sig) → Buf (Elt Ideal) ℓ) (ρ : Dev nD → PrngReg)

/-- The four heads' scores stacked, as a function of the arguments as launched. -/
abbrev scores (c : Dev nD) : Vec Ideal S4x32x32000 .f32 :=
  Cert.Medusa.stacked (ag0 m c) (ag1 m c) (ag2 m c) (ag3 m c)

/-- Entry (0, b, v) of the block point `t` computes is the score of the point's head on row `b` for row `v` of the
    point's vocabulary tile. -/
theorem block_apply (c : Dev nD) (t : Fin cfg0.N) (y : S1x32x3200.Idx) :
    k0_pay2 (hid m c (headOf t)) (xb3 m c t) y = scores m c (ix3 (headOf t) (y 1) (rowOf t (y 2))) := by
  obtain ⟨u, b, v, rfl⟩ : ∃ (u : Fin 1) (b : Fin 32) (v : Fin 3200), y = ix3 u b v := ⟨y 0, y 1, y 2, eq_ix3 y⟩
  obtain rfl : u = 0 := Subsingleton.elim _ _
  refine (Payload.out_apply (hid m c (headOf t)) (xb3 m c t) b v).trans ?_
  show (∑ o : Fin 1024, hid m c (headOf t) (ix2 b o) * xb3 m c t (ix3 (0 : Fin 1) v o))
    = ∑ o : Fin 1024, Cert.Medusa.hidden (ag0 m c) (ag1 m c) (ag2 m c) (headOf t) b o * ag3 m c (ix3 (headOf t) (rowOf t v) o)
  refine Finset.sum_congr rfl fun o _ => ?_
  rw [xb3_apply, ar3_eq]
  rfl

/-- What point `t` writes back is block `t` of the stacked scores. -/
theorem flushed_eq (c : Dev nD) (t : Fin cfg0.N) :
    (dats m 0 c).flushed 4 t = ((cfg0.win 4).blk t).view.read (Elt Ideal) (scores m c) := by
  show (cfg0.win 4).cut (grid0.coords t) ((dats m 0 c).after 4 t) = _
  rw [after0_4, out_eq]
  obtain ⟨-, -, -, -, -, -, -, -, -, -, -, e0, e1, e2⟩ := idx_facts t
  funext y
  refine (block_apply m c t y).trans ?_
  show scores m c (ix3 (headOf t) (y 1) (rowOf t (y 2))) = scores m c (((cfg0.win 4).blk t).view.emb y)
  refine congrArg _ (funext fun a => Fin.ext ?_)
  match a with
  | ⟨0, _⟩ => show t.val / 10 = win0_4.index t (0 : Fin 3) * 1 + 1 * (y 0).val; have hy : (y 0).val < 1 := (y 0).isLt; omega
  | ⟨1, _⟩ => show (y 1).val = win0_4.index t (1 : Fin 3) * 32 + 1 * (y 1).val; omega
  | ⟨2, _⟩ => show 3200 * (t.val % 10) + (y 2).val = win0_4.index t (2 : Fin 3) * 3200 + 1 * (y 2).val; omega

/-- An index of the array is in point `t`'s block iff each coordinate is in the block's range on its axis. -/
theorem mem_blk (t : Fin cfg0.N) (i : S4x32x32000.Idx) :
    i ∈ ((cfg0.win 4).blk t).view.set ↔ ∀ a : Fin 3, win0_4.index t a * S1x32x3200.size a ≤ (i a).val
      ∧ (i a).val < win0_4.index t a * S1x32x3200.size a + S1x32x3200.size a := by
  show i ∈ ((View.whole main_v2).slice (win0_4.rect t)).set ↔ _
  rw [View.set_slice_whole, Rect.mem_set_unit]
  exact Iff.rfl

/-- Every index of the array is in the block of the point of its head and of its column's tile. -/
theorem cover (i : S4x32x32000.Idx) :
    ∃ t : Fin cfg0.N, (cfg0.win 4).flush t = true ∧ i ∈ ((cfg0.win 4).blk t).view.set := by
  have h0 : (i 0).val < 4 := (i 0).isLt
  have h1 : (i 1).val < 32 := (i 1).isLt
  have h2 : (i 2).val < 32000 := (i 2).isLt
  have hN : cfg0.N = 40 := N_0
  refine ⟨⟨10 * (i 0).val + (i 2).val / 3200, by omega⟩, flush0_4 _, ?_⟩
  rw [mem_blk]
  obtain ⟨-, -, -, -, -, -, -, -, -, -, -, e0, e1, e2⟩ := idx_facts ⟨10 * (i 0).val + (i 2).val / 3200, by omega⟩
  dsimp only at e0 e1 e2
  intro a
  match a with
  | ⟨0, _⟩ =>
    show win0_4.index ⟨10 * (i 0).val + (i 2).val / 3200, _⟩ (0 : Fin 3) * 1 ≤ (i 0).val
      ∧ (i 0).val < win0_4.index ⟨10 * (i 0).val + (i 2).val / 3200, _⟩ (0 : Fin 3) * 1 + 1
    omega
  | ⟨1, _⟩ =>
    show win0_4.index ⟨10 * (i 0).val + (i 2).val / 3200, _⟩ (1 : Fin 3) * 32 ≤ (i 1).val
      ∧ (i 1).val < win0_4.index ⟨10 * (i 0).val + (i 2).val / 3200, _⟩ (1 : Fin 3) * 32 + 32
    omega
  | ⟨2, _⟩ =>
    show win0_4.index ⟨10 * (i 0).val + (i 2).val / 3200, _⟩ (2 : Fin 3) * 3200 ≤ (i 2).val
      ∧ (i 2).val < win0_4.index ⟨10 * (i 0).val + (i 2).val / 3200, _⟩ (2 : Fin 3) * 3200 + 3200
    omega

/-- So the array the kernel fills ends holding the stacked scores. -/
theorem final (c : Dev nD) : (dats m 0 c).arrAt 4 cfg0.N = scores m c :=
  (dats m 0 c).arrAt_eq_of_cover 4 (scores m c) (fun t _ => flushed_eq m c t) cover

end Cert.KernelIdeal.Result

end
-- ==== Proof.KernelRun.lean ====
/-
  The kernel program's run, read as values: after the kernel has filled the array of shape [4, 32, 32000] with
  the stacked scores, the program cuts head i's slab [i : i + 1, :, :] out of it, drops the leading unit axis and
  inserts a unit axis in the middle; entry (b, 0, v) of result i is entry (i, b, v) of the filled array, which is
  head i's score on row b for vocabulary entry v. The four arguments end as they were launched.
-/
import proofs.«142830_g72112500900637_cont_9to1_m_1202_3_alg».proof.Proof.Result

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Blocks Cert.KernelIdeal.Carried Cert.KernelIdeal.Result

variable (m : (ℓ : Loc nD τ sig) → Buf (Elt Ideal) ℓ) (ρ : Dev nD → PrngReg)

/-- Head `i`'s slab of a [4, 32, 32000] array, with the leading unit axis dropped and a middle one inserted,
    read at (b, 0, v): the array's entry (i, b, v). -/
theorem slab_apply (i : Fin 4) (G : Vec Ideal S4x32x32000 .f32) (off : Fin 3 → Nat) (hoff : off = ![i.val, 0, 0])
    (h : S4x32x32000.Slices off S1x32x32000) (j : S32x1x32000.Idx) :
    shapeCast S32x1x32000 (shapeCast S32x32000 (extractStridedSlice S1x32x32000 off G h) shapeCasts_S1x32x32000_S32x32000)
      shapeCasts_S32x32000_S32x1x32000 j = G (ix3 i (j 0) (j 2)) := by
  subst hoff
  obtain ⟨b, u, v, rfl⟩ : ∃ (b : Fin 32) (u : Fin 1) (v : Fin 32000), j = ix3 b u v := ⟨j 0, j 1, j 2, eq_ix3 j⟩
  have hu : u.val = 0 := by omega
  refine (shapeCast_apply _ shapeCasts_S32x32000_S32x1x32000 (ix3 b u v) (ix2 b v) (by
    rw [Shape.rowMajor_val_three, Shape.rowMajor_val_two]
    show b.val * 32000 + v.val = (b.val * 1 + u.val) * 32000 + v.val
    omega)).trans ?_
  rw [shapeCast_1ab_ab_apply]
  exact extractStridedSlice_apply ![i.val, 0, 0] G h (ix3 (0 : Fin 1) b v) (ix3 i b v) (fun a => by
    match a with
    | ⟨0, _⟩ => show i.val = i.val + 0; omega
    | ⟨1, _⟩ => show b.val = 0 + b.val; omega
    | ⟨2, _⟩ => show v.val = 0 + v.val; omega)

/-- When the host operations after the kernel start, the array the kernel filled holds the stacked scores. -/
theorem filled (c : Dev nD) :
    Pipeline.withArrays (cfgs 0).spec c (V0 m c) (fun w => (dats m 0 c).arrAt w (cfgs 0).N) (Proc.tc.devRef main_v2)
      = scores m c :=
  (Pipeline.withArrays_arr spec0 launch0.win.arr_inj c _ _ 4).trans (final m c)

/-- Result 0: head 0's slab of the filled array, reshaped. -/
theorem tail_v5 (c : Dev nD) : Pipeline.afterTail₀ cfgs (dats m) 0 (V0 m) [hostOps1] c main_v5
    = Cert.Medusa.head (ag0 m c) (ag1 m c) (ag2 m c) (ag3 m c) 0 := by
  unfold Pipeline.afterTail₀
  show StableHlo.after hostOps1 _ (Proc.devRef .tc main_v5) = _
  after_results
  rw [filled m c]
  funext j
  exact slab_apply 0 (scores m c) ![0, 0, 0] rfl slices_S4x32x32000_S1x32x32000_0_0_0 j

/-- Result 1: head 1's slab of the filled array, reshaped. -/
theorem tail_v8 (c : Dev nD) : Pipeline.afterTail₀ cfgs (dats m) 0 (V0 m) [hostOps1] c main_v8
    = Cert.Medusa.head (ag0 m c) (ag1 m c) (ag2 m c) (ag3 m c) 1 := by
  unfold Pipeline.afterTail₀
  show StableHlo.after hostOps1 _ (Proc.devRef .tc main_v8) = _
  after_results
  rw [filled m c]
  funext j
  exact slab_apply 1 (scores m c) ![1, 0, 0] rfl slices_S4x32x32000_S1x32x32000_1_0_0 j

/-- Result 2: head 2's slab of the filled array, reshaped. -/
theorem tail_v11 (c : Dev nD) : Pipeline.afterTail₀ cfgs (dats m) 0 (V0 m) [hostOps1] c main_v11
    = Cert.Medusa.head (ag0 m c) (ag1 m c) (ag2 m c) (ag3 m c) 2 := by
  unfold Pipeline.afterTail₀
  show StableHlo.after hostOps1 _ (Proc.devRef .tc main_v11) = _
  after_results
  rw [filled m c]
  funext j
  exact slab_apply 2 (scores m c) ![2, 0, 0] rfl slices_S4x32x32000_S1x32x32000_2_0_0 j

/-- Result 3: head 3's slab of the filled array, reshaped. -/
theorem tail_v14 (c : Dev nD) : Pipeline.afterTail₀ cfgs (dats m) 0 (V0 m) [hostOps1] c main_v14
    = Cert.Medusa.head (ag0 m c) (ag1 m c) (ag2 m c) (ag3 m c) 3 := by
  unfold Pipeline.afterTail₀
  show StableHlo.after hostOps1 _ (Proc.devRef .tc main_v14) = _
  after_results
  rw [filled m c]
  funext j
  exact slab_apply 3 (scores m c) ![3, 0, 0] rfl slices_S4x32x32000_S1x32x32000_3_0_0 j

/-- Every weakly fair execution of the kernel program ends with its four results at the four heads' scores of the
    arguments as launched, and the arguments unchanged. -/
theorem run : θ_run defs (onTc (τ := τ) (main (F := Ideal))) ⟨m, fun _ => 0, ρ⟩ fun r => ∀ c : Dev nD,
      r.2.mem ((c.tc : Thread nD τ).loc main_v5) = Cert.Medusa.head (ag0 m c) (ag1 m c) (ag2 m c) (ag3 m c) 0
      ∧ r.2.mem ((c.tc : Thread nD τ).loc main_v8) = Cert.Medusa.head (ag0 m c) (ag1 m c) (ag2 m c) (ag3 m c) 1
      ∧ r.2.mem ((c.tc : Thread nD τ).loc main_v11) = Cert.Medusa.head (ag0 m c) (ag1 m c) (ag2 m c) (ag3 m c) 2
      ∧ r.2.mem ((c.tc : Thread nD τ).loc main_v14) = Cert.Medusa.head (ag0 m c) (ag1 m c) (ag2 m c) (ag3 m c) 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_v5 m c),
      ((h c).2 main_v8 (Pipeline.mem_restRefs_of main_v8 (by decide) (by decide))).trans (tail_v8 m c),
      ((h c).2 main_v11 (Pipeline.mem_restRefs_of main_v11 (by decide) (by decide))).trans (tail_v11 m c),
      ((h c).2 main_v14 (Pipeline.mem_restRefs_of main_v14 (by decide) (by decide))).trans (tail_v14 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.KernelRun

end
-- ==== Proof.RefValue.lean ====
/-
  The reference program computes each head by slicing that head's weights out of the stacked arrays, flattening
  the slice to a matrix, contracting the hidden states against it, adding the (broadcast) bias, gating with
  `a * (1 / (1 + e^(-a)))` and contracting the gated layer against the head's output weights. Read index by index
  this is the specification's `head`: every layout step (slice, reshape, broadcast) only renames an index, the two
  ones of the gate are the f32 word of one, and `1 / (1 + e^(-a))` is the logistic function by definition.
-/
import proofs.«142830_g72112500900637_cont_9to1_m_1202_3_alg».proof.Defs
import proofs.«142830_g72112500900637_cont_9to1_m_1202_3_alg».proof.Proof.Gen.ReferenceIdeal.Run
import proofs.«142830_g72112500900637_cont_9to1_m_1202_3_alg».proof.Proof.Gen.ReferenceIdeal.Read
import proofs.«142830_g72112500900637_cont_9to1_m_1202_3_alg».proof.Proof.Spec
import Idealize.ShloMosaic.Lib.IdealHost

noncomputable section

namespace Cert.ReferenceIdeal.HeadValue

open Cert.ReferenceIdeal Cert.ReferenceIdeal.Gen Idealize.ShloMosaic Idealize.ShloMosaic.ValueIdx

/-- The gate as the reference spells it, `a * (1 / (1 + e^(-a)))` with both ones given by the f32 word of one, is the
    SiLU gate: the word denotes one, and the quotient is the logistic function by definition. -/
theorem gate_eq (a : Ideal .f32) :
    FloatOps.mulf a (FloatOps.hostDivf (FloatOps.ofBits (F := Ideal) .f32 0x3F800000#32)
      (FloatOps.addf (FloatOps.ofBits (F := Ideal) .f32 0x3F800000#32) (FloatOps.hostUnary .exp (FloatOps.hostNegf a))))
      = Cert.Medusa.silu a := by
  rw [Ideal.ofBits_def, Ideal.ofBits_one_f32]
  rfl

/-! ## The first head (slices at offset 0) -/

/-- The affine layer of head 0 at `(b, 0, o)`: the slice, the reshape and the two broadcasts rename the index, so the
    contraction runs over row `o` of the head's first weights and the bias read is entry `o` of the head's bias. -/
theorem affine0 (x0 : FVec Ideal S32x1x1024 .f32) (x1 : FVec Ideal S4x1024x1024 .f32) (x2 : FVec Ideal S4x1024 .f32)
    (b : Fin 32) (o : Fin 1024) :
    Read.val_main_v7 (F := Ideal) x0 x1 x2 (ix3 b 0 o)
      = (∑ k : Fin 1024, x0 (ix3 b 0 k) * x1 (ix3 0 o k)) + x2 (ix2 0 o) := by
  have ho : o.val < 1024 := o.isLt
  have el : ∀ k : Fin 1024, Read.lidx_main_v2 (ix3 b 0 o) k = ix3 b 0 k := fun k => funext fun a => Fin.ext (by
    match a with
    | ⟨0, _⟩ => rfl
    | ⟨1, _⟩ => rfl
    | ⟨2, _⟩ => rfl)
  have er : ∀ k : Fin 1024, Read.idx_main_v0 (Read.idx_main_v1 (Read.ridx_main_v2 (ix3 b 0 o) k)) = ix3 0 o k := fun k => funext fun a => Fin.ext (by
    have hk : k.val < 1024 := k.isLt
    match a with
    | ⟨0, _⟩ => rfl
    | ⟨1, _⟩ => show (o.val * 1024 + k.val) / 1024 % 1024 = o.val; omega
    | ⟨2, _⟩ => show (o.val * 1024 + k.val) % 1024 = k.val; omega)
  have eb : Read.idx_main_v3 (Read.idx_main_v4 (Read.idx_main_v5 (Read.idx_main_v6 (ix3 b 0 o)))) = ix2 0 o := funext fun a => Fin.ext (by
    match a with
    | ⟨0, _⟩ => rfl
    | ⟨1, _⟩ => show o.val % 1024 = o.val; omega)
  rw [Read.val_main_v7_apply, Read.val_main_v2_apply, Read.val_main_v6_apply, Read.val_main_v5_apply, Read.val_main_v4_apply, Read.val_main_v3_apply, eb]
  simp only [Read.val_main_v1_apply, Read.val_main_v0_apply, el, er]
  rfl

/-- The gated layer of head 0 at `(b, 0, o)` is the specification's hidden entry. -/
theorem hidden0 (x0 : FVec Ideal S32x1x1024 .f32) (x1 : FVec Ideal S4x1024x1024 .f32) (x2 : FVec Ideal S4x1024 .f32)
    (b : Fin 32) (o : Fin 1024) :
    Read.val_main_v14 (F := Ideal) x0 x1 x2 (ix3 b 0 o) = Cert.Medusa.hidden x0 x1 x2 0 b o := by
  rw [Read.val_main_v14_apply, Read.val_main_v13_apply, Read.val_main_v12_apply, Read.val_main_cst_0_apply, Read.val_main_v11_apply, Read.val_main_v10_apply,
    Read.val_main_cst_apply, Read.val_main_v9_apply, Read.val_main_v8_apply, gate_eq, affine0]
  rfl

/-- Head 0's output weights, sliced out and flattened, at `(v, o)`. -/
theorem weights0 (x3 : FVec Ideal S4x32000x1024 .f32) (v : Fin 32000) (o : Fin 1024) :
    Read.val_main_v16 (F := Ideal) x3 (ix2 v o) = x3 (ix3 0 v o) := by
  have hv : v.val < 32000 := v.isLt
  have ho : o.val < 1024 := o.isLt
  rw [Read.val_main_v16_apply, Read.val_main_v15_apply]
  exact congrArg x3 (funext fun a => Fin.ext (by
    match a with
    | ⟨0, _⟩ => rfl
    | ⟨1, _⟩ => show (v.val * 1024 + o.val) / 1024 % 32000 = v.val; omega
    | ⟨2, _⟩ => show (v.val * 1024 + o.val) % 1024 = o.val; omega))

/-- The reference's result for head 0 is the specification's head 0. -/
theorem head0_eq (x0 : FVec Ideal S32x1x1024 .f32) (x1 : FVec Ideal S4x1024x1024 .f32) (x2 : FVec Ideal S4x1024 .f32)
    (x3 : FVec Ideal S4x32000x1024 .f32) :
    Read.val_main_v17 (F := Ideal) x0 x1 x2 x3 = Cert.Medusa.head x0 x1 x2 x3 0 := by
  funext j
  obtain ⟨b, u, v, rfl⟩ : ∃ (b : Fin 32) (u : Fin 1) (v : Fin 32000), j = ix3 b u v := ⟨j 0, j 1, j 2, eq_ix3 j⟩
  rw [Read.val_main_v17_apply]
  show _ = ∑ o : Fin 1024, Cert.Medusa.hidden x0 x1 x2 0 b o * x3 (ix3 0 v o)
  refine Finset.sum_congr rfl fun o _ => ?_
  have el : Read.lidx_main_v17 (ix3 b u v) o = ix3 b 0 o := funext fun a => Fin.ext (by
    match a with
    | ⟨0, _⟩ => rfl
    | ⟨1, _⟩ => have hu : u.val < 1 := u.isLt; show u.val = 0; omega
    | ⟨2, _⟩ => rfl)
  have er : Read.ridx_main_v17 (ix3 b u v) o = ix2 v o := funext fun a => Fin.ext (by
    match a with
    | ⟨0, _⟩ => rfl
    | ⟨1, _⟩ => rfl)
  rw [el, er, hidden0, weights0]

/-! ## The second head (slices at offset 1) -/

/-- The affine layer of head 1 at `(b, 0, o)`: the slice starts at row 1 of the stacked weights and of the stacked
    biases; the reshape and the two broadcasts rename the index as for head 0. -/
theorem affine1 (x0 : FVec Ideal S32x1x1024 .f32) (x1 : FVec Ideal S4x1024x1024 .f32) (x2 : FVec Ideal S4x1024 .f32)
    (b : Fin 32) (o : Fin 1024) :
    Read.val_main_v25 (F := Ideal) x0 x1 x2 (ix3 b 0 o)
      = (∑ k : Fin 1024, x0 (ix3 b 0 k) * x1 (ix3 1 o k)) + x2 (ix2 1 o) := by
  have ho : o.val < 1024 := o.isLt
  have el : ∀ k : Fin 1024, Read.lidx_main_v20 (ix3 b 0 o) k = ix3 b 0 k := fun k => funext fun a => Fin.ext (by
    match a with
    | ⟨0, _⟩ => rfl
    | ⟨1, _⟩ => rfl
    | ⟨2, _⟩ => rfl)
  have er : ∀ k : Fin 1024, Read.idx_main_v18 (Read.idx_main_v19 (Read.ridx_main_v20 (ix3 b 0 o) k)) = ix3 1 o k := fun k => funext fun a => Fin.ext (by
    have hk : k.val < 1024 := k.isLt
    match a with
    | ⟨0, _⟩ => show 1 + 0 = 1; omega
    | ⟨1, _⟩ => show (o.val * 1024 + k.val) / 1024 % 1024 = o.val; omega
    | ⟨2, _⟩ => show (o.val * 1024 + k.val) % 1024 = k.val; omega)
  have eb : Read.idx_main_v21 (Read.idx_main_v22 (Read.idx_main_v23 (Read.idx_main_v24 (ix3 b 0 o)))) = ix2 1 o := funext fun a => Fin.ext (by
    match a with
    | ⟨0, _⟩ => show 1 + 0 = 1; omega
    | ⟨1, _⟩ => show o.val % 1024 = o.val; omega)
  rw [Read.val_main_v25_apply, Read.val_main_v20_apply, Read.val_main_v24_apply, Read.val_main_v23_apply, Read.val_main_v22_apply, Read.val_main_v21_apply, eb]
  simp only [Read.val_main_v19_apply, Read.val_main_v18_apply, el, er]
  rfl

/-- The gated layer of head 1 at `(b, 0, o)` is the specification's hidden entry. -/
theorem hidden1 (x0 : FVec Ideal S32x1x1024 .f32) (x1 : FVec Ideal S4x1024x1024 .f32) (x2 : FVec Ideal S4x1024 .f32)
    (b : Fin 32) (o : Fin 1024) :
    Read.val_main_v32 (F := Ideal) x0 x1 x2 (ix3 b 0 o) = Cert.Medusa.hidden x0 x1 x2 1 b o := by
  rw [Read.val_main_v32_apply, Read.val_main_v31_apply, Read.val_main_v30_apply, Read.val_main_cst_2_apply, Read.val_main_v29_apply, Read.val_main_v28_apply,
    Read.val_main_cst_1_apply, Read.val_main_v27_apply, Read.val_main_v26_apply, gate_eq, affine1]
  rfl

/-- Head 1's output weights, sliced out and flattened, at `(v, o)`. -/
theorem weights1 (x3 : FVec Ideal S4x32000x1024 .f32) (v : Fin 32000) (o : Fin 1024) :
    Read.val_main_v34 (F := Ideal) x3 (ix2 v o) = x3 (ix3 1 v o) := by
  have hv : v.val < 32000 := v.isLt
  have ho : o.val < 1024 := o.isLt
  rw [Read.val_main_v34_apply, Read.val_main_v33_apply]
  exact congrArg x3 (funext fun a => Fin.ext (by
    match a with
    | ⟨0, _⟩ => show 1 + 0 = 1; omega
    | ⟨1, _⟩ => show (v.val * 1024 + o.val) / 1024 % 32000 = v.val; omega
    | ⟨2, _⟩ => show (v.val * 1024 + o.val) % 1024 = o.val; omega))

/-- The reference's result for head 1 is the specification's head 1. -/
theorem head1_eq (x0 : FVec Ideal S32x1x1024 .f32) (x1 : FVec Ideal S4x1024x1024 .f32) (x2 : FVec Ideal S4x1024 .f32)
    (x3 : FVec Ideal S4x32000x1024 .f32) :
    Read.val_main_v35 (F := Ideal) x0 x1 x2 x3 = Cert.Medusa.head x0 x1 x2 x3 1 := by
  funext j
  obtain ⟨b, u, v, rfl⟩ : ∃ (b : Fin 32) (u : Fin 1) (v : Fin 32000), j = ix3 b u v := ⟨j 0, j 1, j 2, eq_ix3 j⟩
  rw [Read.val_main_v35_apply]
  show _ = ∑ o : Fin 1024, Cert.Medusa.hidden x0 x1 x2 1 b o * x3 (ix3 1 v o)
  refine Finset.sum_congr rfl fun o _ => ?_
  have el : Read.lidx_main_v35 (ix3 b u v) o = ix3 b 0 o := funext fun a => Fin.ext (by
    match a with
    | ⟨0, _⟩ => rfl
    | ⟨1, _⟩ => have hu : u.val < 1 := u.isLt; show u.val = 0; omega
    | ⟨2, _⟩ => rfl)
  have er : Read.ridx_main_v35 (ix3 b u v) o = ix2 v o := funext fun a => Fin.ext (by
    match a with
    | ⟨0, _⟩ => rfl
    | ⟨1, _⟩ => rfl)
  rw [el, er, hidden1, weights1]

/-! ## The third head (slices at offset 2) -/

/-- The affine layer of head 2 at `(b, 0, o)`: the slice starts at row 2 of the stacked weights and of the stacked
    biases. -/
theorem affine2 (x0 : FVec Ideal S32x1x1024 .f32) (x1 : FVec Ideal S4x1024x1024 .f32) (x2 : FVec Ideal S4x1024 .f32)
    (b : Fin 32) (o : Fin 1024) :
    Read.val_main_v43 (F := Ideal) x0 x1 x2 (ix3 b 0 o)
      = (∑ k : Fin 1024, x0 (ix3 b 0 k) * x1 (ix3 2 o k)) + x2 (ix2 2 o) := by
  have ho : o.val < 1024 := o.isLt
  have el : ∀ k : Fin 1024, Read.lidx_main_v38 (ix3 b 0 o) k = ix3 b 0 k := fun k => funext fun a => Fin.ext (by
    match a with
    | ⟨0, _⟩ => rfl
    | ⟨1, _⟩ => rfl
    | ⟨2, _⟩ => rfl)
  have er : ∀ k : Fin 1024, Read.idx_main_v36 (Read.idx_main_v37 (Read.ridx_main_v38 (ix3 b 0 o) k)) = ix3 2 o k := fun k => funext fun a => Fin.ext (by
    have hk : k.val < 1024 := k.isLt
    match a with
    | ⟨0, _⟩ => show 2 + 0 = 2; omega
    | ⟨1, _⟩ => show (o.val * 1024 + k.val) / 1024 % 1024 = o.val; omega
    | ⟨2, _⟩ => show (o.val * 1024 + k.val) % 1024 = k.val; omega)
  have eb : Read.idx_main_v39 (Read.idx_main_v40 (Read.idx_main_v41 (Read.idx_main_v42 (ix3 b 0 o)))) = ix2 2 o := funext fun a => Fin.ext (by
    match a with
    | ⟨0, _⟩ => show 2 + 0 = 2; omega
    | ⟨1, _⟩ => show o.val % 1024 = o.val; omega)
  rw [Read.val_main_v43_apply, Read.val_main_v38_apply, Read.val_main_v42_apply, Read.val_main_v41_apply, Read.val_main_v40_apply, Read.val_main_v39_apply, eb]
  simp only [Read.val_main_v37_apply, Read.val_main_v36_apply, el, er]
  rfl

/-- The gated layer of head 2 at `(b, 0, o)` is the specification's hidden entry. -/
theorem hidden2 (x0 : FVec Ideal S32x1x1024 .f32) (x1 : FVec Ideal S4x1024x1024 .f32) (x2 : FVec Ideal S4x1024 .f32)
    (b : Fin 32) (o : Fin 1024) :
    Read.val_main_v50 (F := Ideal) x0 x1 x2 (ix3 b 0 o) = Cert.Medusa.hidden x0 x1 x2 2 b o := by
  rw [Read.val_main_v50_apply, Read.val_main_v49_apply, Read.val_main_v48_apply, Read.val_main_cst_4_apply, Read.val_main_v47_apply, Read.val_main_v46_apply,
    Read.val_main_cst_3_apply, Read.val_main_v45_apply, Read.val_main_v44_apply, gate_eq, affine2]
  rfl

/-- Head 2's output weights, sliced out and flattened, at `(v, o)`. -/
theorem weights2 (x3 : FVec Ideal S4x32000x1024 .f32) (v : Fin 32000) (o : Fin 1024) :
    Read.val_main_v52 (F := Ideal) x3 (ix2 v o) = x3 (ix3 2 v o) := by
  have hv : v.val < 32000 := v.isLt
  have ho : o.val < 1024 := o.isLt
  rw [Read.val_main_v52_apply, Read.val_main_v51_apply]
  exact congrArg x3 (funext fun a => Fin.ext (by
    match a with
    | ⟨0, _⟩ => show 2 + 0 = 2; omega
    | ⟨1, _⟩ => show (v.val * 1024 + o.val) / 1024 % 32000 = v.val; omega
    | ⟨2, _⟩ => show (v.val * 1024 + o.val) % 1024 = o.val; omega))

/-- The reference's result for head 2 is the specification's head 2. -/
theorem head2_eq (x0 : FVec Ideal S32x1x1024 .f32) (x1 : FVec Ideal S4x1024x1024 .f32) (x2 : FVec Ideal S4x1024 .f32)
    (x3 : FVec Ideal S4x32000x1024 .f32) :
    Read.val_main_v53 (F := Ideal) x0 x1 x2 x3 = Cert.Medusa.head x0 x1 x2 x3 2 := by
  funext j
  obtain ⟨b, u, v, rfl⟩ : ∃ (b : Fin 32) (u : Fin 1) (v : Fin 32000), j = ix3 b u v := ⟨j 0, j 1, j 2, eq_ix3 j⟩
  rw [Read.val_main_v53_apply]
  show _ = ∑ o : Fin 1024, Cert.Medusa.hidden x0 x1 x2 2 b o * x3 (ix3 2 v o)
  refine Finset.sum_congr rfl fun o _ => ?_
  have el : Read.lidx_main_v53 (ix3 b u v) o = ix3 b 0 o := funext fun a => Fin.ext (by
    match a with
    | ⟨0, _⟩ => rfl
    | ⟨1, _⟩ => have hu : u.val < 1 := u.isLt; show u.val = 0; omega
    | ⟨2, _⟩ => rfl)
  have er : Read.ridx_main_v53 (ix3 b u v) o = ix2 v o := funext fun a => Fin.ext (by
    match a with
    | ⟨0, _⟩ => rfl
    | ⟨1, _⟩ => rfl)
  rw [el, er, hidden2, weights2]

/-! ## The fourth head (slices at offset 3) -/

/-- The affine layer of head 3 at `(b, 0, o)`: the slice starts at row 3 of the stacked weights and of the stacked
    biases. -/
theorem affine3 (x0 : FVec Ideal S32x1x1024 .f32) (x1 : FVec Ideal S4x1024x1024 .f32) (x2 : FVec Ideal S4x1024 .f32)
    (b : Fin 32) (o : Fin 1024) :
    Read.val_main_v61 (F := Ideal) x0 x1 x2 (ix3 b 0 o)
      = (∑ k : Fin 1024, x0 (ix3 b 0 k) * x1 (ix3 3 o k)) + x2 (ix2 3 o) := by
  have ho : o.val < 1024 := o.isLt
  have el : ∀ k : Fin 1024, Read.lidx_main_v56 (ix3 b 0 o) k = ix3 b 0 k := fun k => funext fun a => Fin.ext (by
    match a with
    | ⟨0, _⟩ => rfl
    | ⟨1, _⟩ => rfl
    | ⟨2, _⟩ => rfl)
  have er : ∀ k : Fin 1024, Read.idx_main_v54 (Read.idx_main_v55 (Read.ridx_main_v56 (ix3 b 0 o) k)) = ix3 3 o k := fun k => funext fun a => Fin.ext (by
    have hk : k.val < 1024 := k.isLt
    match a with
    | ⟨0, _⟩ => show 3 + 0 = 3; omega
    | ⟨1, _⟩ => show (o.val * 1024 + k.val) / 1024 % 1024 = o.val; omega
    | ⟨2, _⟩ => show (o.val * 1024 + k.val) % 1024 = k.val; omega)
  have eb : Read.idx_main_v57 (Read.idx_main_v58 (Read.idx_main_v59 (Read.idx_main_v60 (ix3 b 0 o)))) = ix2 3 o := funext fun a => Fin.ext (by
    match a with
    | ⟨0, _⟩ => show 3 + 0 = 3; omega
    | ⟨1, _⟩ => show o.val % 1024 = o.val; omega)
  rw [Read.val_main_v61_apply, Read.val_main_v56_apply, Read.val_main_v60_apply, Read.val_main_v59_apply, Read.val_main_v58_apply, Read.val_main_v57_apply, eb]
  simp only [Read.val_main_v55_apply, Read.val_main_v54_apply, el, er]
  rfl

/-- The gated layer of head 3 at `(b, 0, o)` is the specification's hidden entry. -/
theorem hidden3 (x0 : FVec Ideal S32x1x1024 .f32) (x1 : FVec Ideal S4x1024x1024 .f32) (x2 : FVec Ideal S4x1024 .f32)
    (b : Fin 32) (o : Fin 1024) :
    Read.val_main_v68 (F := Ideal) x0 x1 x2 (ix3 b 0 o) = Cert.Medusa.hidden x0 x1 x2 3 b o := by
  rw [Read.val_main_v68_apply, Read.val_main_v67_apply, Read.val_main_v66_apply, Read.val_main_cst_6_apply, Read.val_main_v65_apply, Read.val_main_v64_apply,
    Read.val_main_cst_5_apply, Read.val_main_v63_apply, Read.val_main_v62_apply, gate_eq, affine3]
  rfl

/-- Head 3's output weights, sliced out and flattened, at `(v, o)`. -/
theorem weights3 (x3 : FVec Ideal S4x32000x1024 .f32) (v : Fin 32000) (o : Fin 1024) :
    Read.val_main_v70 (F := Ideal) x3 (ix2 v o) = x3 (ix3 3 v o) := by
  have hv : v.val < 32000 := v.isLt
  have ho : o.val < 1024 := o.isLt
  rw [Read.val_main_v70_apply, Read.val_main_v69_apply]
  exact congrArg x3 (funext fun a => Fin.ext (by
    match a with
    | ⟨0, _⟩ => show 3 + 0 = 3; omega
    | ⟨1, _⟩ => show (v.val * 1024 + o.val) / 1024 % 32000 = v.val; omega
    | ⟨2, _⟩ => show (v.val * 1024 + o.val) % 1024 = o.val; omega))

/-- The reference's result for head 3 is the specification's head 3. -/
theorem head3_eq (x0 : FVec Ideal S32x1x1024 .f32) (x1 : FVec Ideal S4x1024x1024 .f32) (x2 : FVec Ideal S4x1024 .f32)
    (x3 : FVec Ideal S4x32000x1024 .f32) :
    Read.val_main_v71 (F := Ideal) x0 x1 x2 x3 = Cert.Medusa.head x0 x1 x2 x3 3 := by
  funext j
  obtain ⟨b, u, v, rfl⟩ : ∃ (b : Fin 32) (u : Fin 1) (v : Fin 32000), j = ix3 b u v := ⟨j 0, j 1, j 2, eq_ix3 j⟩
  rw [Read.val_main_v71_apply]
  show _ = ∑ o : Fin 1024, Cert.Medusa.hidden x0 x1 x2 3 b o * x3 (ix3 3 v o)
  refine Finset.sum_congr rfl fun o _ => ?_
  have el : Read.lidx_main_v71 (ix3 b u v) o = ix3 b 0 o := funext fun a => Fin.ext (by
    match a with
    | ⟨0, _⟩ => rfl
    | ⟨1, _⟩ => have hu : u.val < 1 := u.isLt; show u.val = 0; omega
    | ⟨2, _⟩ => rfl)
  have er : Read.ridx_main_v71 (ix3 b u v) o = ix2 v o := funext fun a => Fin.ext (by
    match a with
    | ⟨0, _⟩ => rfl
    | ⟨1, _⟩ => rfl)
  rw [el, er, hidden3, weights3]

end Cert.ReferenceIdeal.HeadValue

end
-- ==== Proof.lean ====
/-
  Four decoding heads, each an affine layer, the SiLU gate and an output layer without bias, computed by one
  kernel over a grid of 4 heads x 10 vocabulary tiles, against the same four heads computed one after the other
  with plain matrix products.

  Over the extended reals both programs return, for head i, row b and vocabulary entry v,

      ∑ o, g i b o * W2 i v o,   g i b o = a * logistic a,   a = ∑ k, x b k * W1 i o k + b1 i o

  (Proof/Spec.lean). The kernel computes g once per head, at the head's first vocabulary tile, keeps it in a buffer
  it carries across the head's ten grid points, and multiplies it with one tile of W2 per point (Proof/Pieces.lean,
  Proof/Payload.lean, Proof/Blocks.lean, Proof/Carried.lean); the forty blocks tile the stacked scores
  (Proof/Result.lean), from which the program cuts the four results (Proof/KernelRun.lean). The reference's four
  chains of operations read at an index are the same sums (Proof/RefValue.lean): its sigmoid is spelt
  1 / (1 + e^(-a)), which is what logistic means on the extended reals, and the order of the factors and of the
  summation index is the same on both sides, so no finiteness of the inputs is used. The kernel's idealization
  rewrote nothing, so the preservation claim is trivial; the three frames are the generated frame runs and the
  reference's generated run.
-/
import proofs.«142830_g72112500900637_cont_9to1_m_1202_3_alg».proof.Defs
import proofs.«142830_g72112500900637_cont_9to1_m_1202_3_alg».proof.Proof.Gen.Kernel
import proofs.«142830_g72112500900637_cont_9to1_m_1202_3_alg».proof.Proof.Gen.Kernel.Frame
import proofs.«142830_g72112500900637_cont_9to1_m_1202_3_alg».proof.Proof.Gen.KernelIdeal
import proofs.«142830_g72112500900637_cont_9to1_m_1202_3_alg».proof.Proof.Gen.KernelIdeal.Frame
import proofs.«142830_g72112500900637_cont_9to1_m_1202_3_alg».proof.Proof.Gen.ReferenceIdeal
import proofs.«142830_g72112500900637_cont_9to1_m_1202_3_alg».proof.Proof.Gen.ReferenceIdeal.Run
import proofs.«142830_g72112500900637_cont_9to1_m_1202_3_alg».proof.Proof.Gen.ReferenceIdeal.Read
import proofs.«142830_g72112500900637_cont_9to1_m_1202_3_alg».proof.Proof.Gen.Pre_finite_inputs
import proofs.«142830_g72112500900637_cont_9to1_m_1202_3_alg».proof.Proof.KernelRun
import proofs.«142830_g72112500900637_cont_9to1_m_1202_3_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments alone: its run with the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- Reading the kernel over the extended reals rewrote none of its operations. -/
theorem preserves : Cert.preserves_Kernel_KernelIdeal := trivial

/-- From arguments that agree, the kernel's four results and the reference's four results are the four heads'
    scores of those arguments. -/
theorem algebraic : Cert.algebraic_KernelIdeal_ReferenceIdeal := by
  intro m ρ m' ρ' _ hagree
  refine ⟨fun c => Cert.Medusa.head (Cert.KernelIdeal.Blocks.ag0 m c) (Cert.KernelIdeal.Blocks.ag1 m c)
        (Cert.KernelIdeal.Blocks.ag2 m c) (Cert.KernelIdeal.Blocks.ag3 m c) 0,
      fun c => Cert.Medusa.head (Cert.KernelIdeal.Blocks.ag0 m c) (Cert.KernelIdeal.Blocks.ag1 m c)
        (Cert.KernelIdeal.Blocks.ag2 m c) (Cert.KernelIdeal.Blocks.ag3 m c) 1,
      fun c => Cert.Medusa.head (Cert.KernelIdeal.Blocks.ag0 m c) (Cert.KernelIdeal.Blocks.ag1 m c)
        (Cert.KernelIdeal.Blocks.ag2 m c) (Cert.KernelIdeal.Blocks.ag3 m c) 2,
      fun c => Cert.Medusa.head (Cert.KernelIdeal.Blocks.ag0 m c) (Cert.KernelIdeal.Blocks.ag1 m c)
        (Cert.KernelIdeal.Blocks.ag2 m c) (Cert.KernelIdeal.Blocks.ag3 m c) 3,
      Cert.KernelIdeal.KernelRun.run m ρ, ?_⟩
  refine (θ_run Cert.ReferenceIdeal.defs _ _).mono (fun _ h c => ?_) (Cert.ReferenceIdeal.Value.run (F := Ideal) m' ρ')
  obtain ⟨r0, r1, r2, r3, k0, k1, k2, k3⟩ := h c
  obtain ⟨e0, e1, e2, e3⟩ := hagree c
  refine ⟨r0.trans ?_, r1.trans ?_, r2.trans ?_, r3.trans ?_, k0, k1, k2, k3⟩
  · rw [Cert.ReferenceIdeal.Read.val_main_v17_eq, Cert.ReferenceIdeal.HeadValue.head0_eq, e0, e1, e2, e3]
  · rw [Cert.ReferenceIdeal.Read.val_main_v35_eq, Cert.ReferenceIdeal.HeadValue.head1_eq, e0, e1, e2, e3]
  · rw [Cert.ReferenceIdeal.Read.val_main_v53_eq, Cert.ReferenceIdeal.HeadValue.head2_eq, e0, e1, e2, e3]
  · rw [Cert.ReferenceIdeal.Read.val_main_v71_eq, Cert.ReferenceIdeal.HeadValue.head3_eq, e0, e1, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
